-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x2048x4096 : Shape := ⟨3, ![8, 2048, 4096]⟩
abbrev S8x4096x2048 : Shape := ⟨3, ![8, 4096, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn_part1 {F : FTy → Type} [FloatOps F] (main_v13 : IVec S_ 1) (main_v16 : IVec S8x4096x2048 1) : IVec S_ 1 :=
  let main_c_5 : IVec S_ 1 := constantI S_ 1 1#1
  let main_v17 : IVec S_ 1 := (fun x v => Host.reduce IntOp.andi x v reducesTo_S8x4096x2048_S_d0_1_2 h_S_) main_v16 main_c_5
  let main_v18 : IVec S_ 1 := andi main_v13 main_v17
  main_v18

def fn {F : FTy → Type} [FloatOps F] (main_arg0 : FVec F S8x2048x2048 .f32) (main_arg1 : FVec F S8x2048x4096 .f32) (main_arg2 : FVec F S8x2048x4096 .f32) (main_arg3 : FVec F S8x4096x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x4096 .f32 := Host.absf main_arg1
  let main_cst_0 : FVec F S_ .f32 := constant S_ .f32 0x7F800000#32
  let main_v5 : FVec F S8x2048x4096 .f32 := broadcastInDim S8x2048x4096 ![] bcast_S_S8x2048x4096 main_cst_0
  let main_v6 : IVec S8x2048x4096 1 := cmpf .olt main_v4 main_v5
  let main_c_1 : IVec S_ 1 := constantI S_ 1 1#1
  let main_v7 : IVec S_ 1 := (fun x v => Host.reduce IntOp.andi x v reducesTo_S8x2048x4096_S_d0_1_2 h_S_) main_v6 main_c_1
  let main_v8 : IVec S_ 1 := andi main_v3 main_v7
  let main_v9 : FVec F S8x2048x4096 .f32 := Host.absf main_arg2
  let main_cst_2 : FVec F S_ .f32 := constant S_ .f32 0x7F800000#32
  let main_v10 : FVec F S8x2048x4096 .f32 := broadcastInDim S8x2048x4096 ![] bcast_S_S8x2048x4096 main_cst_2
  let main_v11 : IVec S8x2048x4096 1 := cmpf .olt main_v9 main_v10
  let main_c_3 : IVec S_ 1 := constantI S_ 1 1#1
  let main_v12 : IVec S_ 1 := (fun x v => Host.reduce IntOp.andi x v reducesTo_S8x2048x4096_S_d0_1_2 h_S_) main_v11 main_c_3
  let main_v13 : IVec S_ 1 := andi main_v8 main_v12
  let main_v14 : FVec F S8x4096x2048 .f32 := Host.absf main_arg3
  let main_cst_4 : FVec F S_ .f32 := constant S_ .f32 0x7F800000#32
  let main_v15 : FVec F S8x4096x2048 .f32 := broadcastInDim S8x4096x2048 ![] bcast_S_S8x4096x2048 main_cst_4
  let main_v16 : IVec S8x4096x2048 1 := cmpf .olt main_v14 main_v15
  fn_part1 (F := F) main_v13 main_v16
-- ==== Kernel.lean ====
abbrev S8x2048x2048 : Shape := ⟨3, ![8, 2048, 2048]⟩
abbrev S8x2048x4096 : Shape := ⟨3, ![8, 2048, 4096]⟩
abbrev S8x4096x2048 : Shape := ⟨3, ![8, 4096, 2048]⟩
abbrev S1x512x2048 : Shape := ⟨3, ![1, 512, 2048]⟩
abbrev S1x2048x512 : Shape := ⟨3, ![1, 2048, 512]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 9
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S8x2048x4096, .f32⟩
  | .hbm, ⟨2, _⟩ => ⟨S8x2048x4096, .f32⟩
  | .hbm, ⟨3, _⟩ => ⟨S8x4096x2048, .f32⟩
  | .hbm, ⟨4, _⟩ => ⟨S8x2048x2048, .bf16⟩
  | .hbm, ⟨5, _⟩ => ⟨S8x2048x4096, .bf16⟩
  | .hbm, ⟨6, _⟩ => ⟨S8x2048x4096, .bf16⟩
  | .hbm, ⟨7, _⟩ => ⟨S8x4096x2048, .bf16⟩
  | .hbm, ⟨8, _⟩ => ⟨S8x2048x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x512x2048, .f32⟩
  | .local _ .vmem, ⟨9, _⟩ => ⟨S1x512x2048, .f32⟩
  | .local _ .vmem, ⟨10, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S512x2048_S1x512x2048 : S512x2048.ShapeCasts S1x512x2048
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .bf16 = 32 ∨ (Rect.block (s := S8x2048x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x4096.size a
  hwx0_1 : ∀ i : grid0.Coords, EltTy.bits .bf16 = 32 ∨ (Rect.block (s := S8x2048x4096) S1x2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x4096.size a
  hwx0_2 : ∀ i : grid0.Coords, EltTy.bits .bf16 = 32 ∨ (Rect.block (s := S8x2048x4096) S1x2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x4096x2048.size a
  hwx0_3 : ∀ i : grid0.Coords, EltTy.bits .bf16 = 32 ∨ (Rect.block (s := S8x4096x2048) S1x512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x2048x2048.size a
  hwx0_4 : ∀ i : grid0.Coords, EltTy.bits .f32 = 32 ∨ (Rect.block (s := S8x2048x2048) S1x512x2048.size (cc0_transform_4 i) (hinb0_4 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x2048 : Shape := ⟨3, ![8, 2048, 2048]⟩
abbrev S8x2048x4096 : Shape := ⟨3, ![8, 2048, 4096]⟩
abbrev S8x4096x2048 : Shape := ⟨3, ![8, 4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x4096, .f32⟩
  | .hbm, ⟨2, _⟩ => ⟨S8x2048x4096, .f32⟩
  | .hbm, ⟨3, _⟩ => ⟨S8x4096x2048, .f32⟩
  | .hbm, ⟨4, _⟩ => ⟨S8x2048x4096, .f32⟩
  | .hbm, ⟨5, _⟩ => ⟨S8x2048x4096, .f32⟩
  | .hbm, ⟨6, _⟩ => ⟨S8x2048x4096, .f32⟩
  | .hbm, ⟨7, _⟩ => ⟨S8x2048x4096, .f32⟩
  | .hbm, ⟨8, _⟩ => ⟨S_, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x2048x4096 : S_.BroadcastsInDim S8x2048x4096 (![] : Fin 0 → Fin S8x2048x4096.rank)
  dot_S8x2048x2048_S8x2048x4096_S8x2048x4096_2_1_1_2_0_0_wf : DotDims.WF S8x2048x2048 S8x2048x4096 S8x2048x4096 [2] [1] [1] [2] [0] [0]
  dot_S8x2048x4096_S8x4096x2048_S8x2048x2048_2_1_1_2_0_0_wf : DotDims.WF S8x2048x4096 S8x4096x2048 S8x2048x2048 [2] [1] [1] [2] [0] [0]

variable [Facts₀]

def dot_S8x2048x2048_S8x2048x4096_S8x2048x4096_2_1_1_2_0_0 : DotDims S8x2048x2048 S8x2048x4096 S8x2048x4096 where
  lhsContracting := [2]
  rhsContracting := [1]
  lhsNonContracting := [1]
  rhsNonContracting := [2]
  lhsBatch := [0]
  rhsBatch := [0]
  wf := dot_S8x2048x2048_S8x2048x4096_S8x2048x4096_2_1_1_2_0_0_wf
def dot_S8x2048x4096_S8x4096x2048_S8x2048x2048_2_1_1_2_0_0 : DotDims S8x2048x4096 S8x4096x2048 S8x2048x2048 where
  lhsContracting := [2]
  rhsContracting := [1]
  lhsNonContracting := [1]
  rhsNonContracting := [2]
  lhsBatch := [0]
  rhsBatch := [0]
  wf := dot_S8x2048x4096_S8x4096x2048_S8x2048x2048_2_1_1_2_0_0_wf

class Facts : Prop extends Facts₀ where

variable [Facts]
-- ==== Proof.Spec.lean ====
/-
  The mathematics of a batch of eight gated feed-forward experts, as one function of the four argument arrays, and the one
  law the certificate needs: a sum over a hidden axis of 4096 is the sum of its eight consecutive chunks of 512.

  For expert `e`, token row `t` and hidden unit `h` the two projections are
  `g = Σ_j x[e,t,j]·gate[e,j,h]` and `u = Σ_j x[e,t,j]·down[e,j,h]`; the hidden activation is `(g · σ(g)) · u`
  with `σ` the logistic function on the extended reals; the result at `(e,t,d)` is `Σ_h hidden[e,t,h]·up[e,h,d]`.
  Addition on the extended reals is commutative and associative, so regrouping the last sum by chunks needs no
  finiteness of the inputs.
-/
import Idealize.ShloMosaic.PureOps.Ideal
import Idealize.ShloMosaic.Lib.ValueIdx

noncomputable section

namespace Cert.Experts

open Idealize.ShloMosaic Idealize.ShloMosaic.ValueIdx

/-- The activations' shape: experts × tokens × model width. -/
abbrev SAct : Shape := ⟨3, ![8, 2048, 2048]⟩
/-- The two input projections' shape: experts × model width × hidden width. -/
abbrev SIn : Shape := ⟨3, ![8, 2048, 4096]⟩
/-- The output projection's shape: experts × hidden width × model width. -/
abbrev SOut : Shape := ⟨3, ![8, 4096, 2048]⟩

/-- One entry of `x @ w` for expert `e`: row `t` of the activations against column `h` of the weights. -/
def proj (x : SAct.Idx → EReal) (w : SIn.Idx → EReal) (e : Fin 8) (t : Fin 2048) (h : Fin 4096) : EReal :=
  ∑ j : Fin 2048, x (ix3 e t j) * w (ix3 e j h)

/-- The gated hidden activation: `silu` of the gate projection, times the linear projection. -/
def hidden (x : SAct.Idx → EReal) (gate down : SIn.Idx → EReal) (e : Fin 8) (t : Fin 2048) (h : Fin 4096) : EReal :=
  proj x gate e t h * Ideal.logistic (proj x gate e t h) * proj x down e t h

/-- One addend of the output contraction: hidden unit `h`'s contribution to output `(e, t, d)`. -/
def term (x : SAct.Idx → EReal) (gate down : SIn.Idx → EReal) (up : SOut.Idx → EReal)
    (e : Fin 8) (t : Fin 2048) (d : Fin 2048) (h : Fin 4096) : EReal :=
  hidden x gate down e t h * up (ix3 e h d)

/-- The experts' output: the hidden activations contracted with the output projection. -/
def expertOut (x : SAct.Idx → EReal) (gate down : SIn.Idx → EReal) (up : SOut.Idx → EReal) : SAct.Idx → EReal :=
  fun i => ∑ h : Fin 4096, term x gate down up (i 0) (i 1) (i 2) h

/-- A sum over 4096 consecutive naturals is the sum, over its eight chunks, of each chunk's 512 addends. -/
theorem sum_chunks {M : Type*} [AddCommMonoid M] (f : ℕ → M) :
    ∑ s ∈ Finset.range 8, ∑ k : Fin 512, f (512 * s + k.val) = ∑ h : Fin 4096, f h.val := by
  rw [Finset.sum_range (fun s => ∑ k : Fin 512, f (512 * s + k.val))]
  rw [← Fintype.sum_prod_type' (f := fun (s : Fin 8) (k : Fin 512) => f (512 * s.val + k.val))]
  rw [← Equiv.sum_comp (finProdFinEquiv (m := 8) (n := 512)) (fun h : Fin 4096 => f h.val)]
  refine Finset.sum_congr rfl fun p _ => ?_
  congr 1
  simp only [finProdFinEquiv_apply_val]
  omega

end Cert.Experts

end
-- ==== Proof.RefValue.lean ====
/-
  The reference computes the experts' output: its last stage, read at an index, is the specification.

  The reference forms both projections by batched matrix products, applies `silu` spelled as
  `g · (1 / (1 + exp(-g)))` — which is `g · σ(g)` by the definition of the logistic function on the extended reals —,
  multiplies by the linear projection and contracts the hidden axis against the output projection.
-/
import proofs.«149001_j51711406244127_1_alg».proof.Proof.Gen.ReferenceIdeal.Read
import proofs.«149001_j51711406244127_1_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx

/-- The gate projection's stage, read at `(e, t, h)`, is row `t` of the activations against column `h` of the weights:
    the left operand is read at `(e, t, j)` and the right at `(e, j, h)` for each contracted `j`. -/
private theorem stage0_proj (x : (⟨S8x2048x2048, .f32⟩ : BufTy).Contents (Elt Ideal)) (w : (⟨S8x2048x4096, .f32⟩ : BufTy).Contents (Elt Ideal))
    (e : Fin 8) (t : Fin 2048) (h : Fin 4096) :
    val_main_v0 (F := Ideal) x w (ix3 e t h) = Cert.Experts.proj x w e t h := by
  rw [val_main_v0_apply]
  unfold Cert.Experts.proj
  refine Finset.sum_congr rfl fun j _ => ?_
  have el : lidx_main_v0 (ix3 e t h) j = ix3 e t j :=
    funext fun a => Fin.ext (by match a with | ⟨0, _⟩ => rfl | ⟨1, _⟩ => rfl | ⟨2, _⟩ => rfl)
  have er : ridx_main_v0 (ix3 e t h) j = ix3 e j h :=
    funext fun a => Fin.ext (by match a with | ⟨0, _⟩ => rfl | ⟨1, _⟩ => rfl | ⟨2, _⟩ => rfl)
  rw [el, er]

/-- The linear projection's stage is the same contraction against the second weight array. -/
private theorem stage1_proj (x : (⟨S8x2048x2048, .f32⟩ : BufTy).Contents (Elt Ideal)) (w : (⟨S8x2048x4096, .f32⟩ : BufTy).Contents (Elt Ideal))
    (e : Fin 8) (t : Fin 2048) (h : Fin 4096) :
    val_main_v1 (F := Ideal) x w (ix3 e t h) = Cert.Experts.proj x w e t h := by
  rw [val_main_v1_apply]
  unfold Cert.Experts.proj
  refine Finset.sum_congr rfl fun j _ => ?_
  have el : lidx_main_v1 (ix3 e t h) j = ix3 e t j :=
    funext fun a => Fin.ext (by match a with | ⟨0, _⟩ => rfl | ⟨1, _⟩ => rfl | ⟨2, _⟩ => rfl)
  have er : ridx_main_v1 (ix3 e t h) j = ix3 e j h :=
    funext fun a => Fin.ext (by match a with | ⟨0, _⟩ => rfl | ⟨1, _⟩ => rfl | ⟨2, _⟩ => rfl)
  rw [el, er]

/-- One addend of the last contraction: the hidden stage at `(e, t, k)` times the output projection at `(e, k, d)`.
    The elementwise stages are read outermost first — the two products, the quotient, the sum with one, the exponential,
    the negation —; on the extended reals each is the plain operation, the constant is one, and
    `1 / (1 + exp (-g))` is the logistic of `g` by definition. -/
private theorem stage3_term (x : (⟨S8x2048x2048, .f32⟩ : BufTy).Contents (Elt Ideal)) (gate down : (⟨S8x2048x4096, .f32⟩ : BufTy).Contents (Elt Ideal))
    (up : (⟨S8x4096x2048, .f32⟩ : BufTy).Contents (Elt Ideal)) (e : Fin 8) (t : Fin 2048) (d : Fin 2048) (k : Fin 4096) :
    val_main_v3 (F := Ideal) x gate down (ix3 e t k) * up (ix3 e k d) = Cert.Experts.term x gate down up e t d k := by
  unfold Cert.Experts.term Cert.Experts.hidden
  rw [val_main_v3_apply, val_main_v2_apply, val_main_call0_v5_apply, val_main_call0_v4_apply, val_main_call0_cst_0_apply,
    val_main_call0_v3_apply, val_main_call0_v2_apply, val_main_call0_cst_apply, val_main_call0_v1_apply,
    val_main_call0_v0_apply, stage0_proj, stage1_proj]
  simp only [Ideal.mulf_def, Ideal.hostDivf_def, Ideal.addf_def, Ideal.hostUnary_exp_def, Ideal.hostNegf_def, Ideal.negf_def,
    Ideal.ofBits_def, Ideal.ofBits_one_f32, Ideal.logistic]

/-- The reference's result stage is the experts' output of its four arguments. -/
theorem ref_eq (x : (⟨S8x2048x2048, .f32⟩ : BufTy).Contents (Elt Ideal)) (gate down : (⟨S8x2048x4096, .f32⟩ : BufTy).Contents (Elt Ideal))
    (up : (⟨S8x4096x2048, .f32⟩ : BufTy).Contents (Elt Ideal)) :
    val_main_v4 (F := Ideal) x gate down up = Cert.Experts.expertOut x gate down up := by
  funext i
  rw [val_main_v4_apply]
  unfold Cert.Experts.expertOut
  refine Finset.sum_congr rfl fun k _ => ?_
  -- the last contraction reads the hidden stage at `(e, t, k)` and the output projection at `(e, k, d)`
  have el : lidx_main_v4 i k = ix3 (n0 := 8) (n1 := 2048) (n2 := 4096) (i 0) (i 1) k :=
    funext fun a => Fin.ext (by match a with | ⟨0, _⟩ => rfl | ⟨1, _⟩ => rfl | ⟨2, _⟩ => rfl)
  have er : ridx_main_v4 i k = ix3 (n0 := 8) (n1 := 4096) (n2 := 2048) (i 0) k (i 2) :=
    funext fun a => Fin.ext (by match a with | ⟨0, _⟩ => rfl | ⟨1, _⟩ => rfl | ⟨2, _⟩ => rfl)
  rw [el, er]
  exact stage3_term x gate down up (i 0) (i 1) (i 2) k

end Cert.ReferenceIdeal.RefValue

end
-- ==== Proof.Pieces.lean ====
/-
  What one grid point leaves behind, as pure functions of what it found.

  The body zeroes the accumulator at the first chunk of a row block (and then reads the zeros back), adds the chunk's
  contribution at every chunk, and at the last chunk copies the accumulator to the output block. So the accumulator after a
  point is the accumulating store's value over either the zero block or what the point before left, and the output block at
  the last chunk is the copy of that.
-/
import proofs.«149001_j51711406244127_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords)
  (arg3 : Memref sig .tc .vmem S1x512x2048 .bf16) (harg3 : arg3.IsWhole)
  (arg4 : Memref sig .tc .vmem S1x2048x512 .bf16) (harg4 : arg4.IsWhole)
  (arg5 : Memref sig .tc .vmem S1x2048x512 .bf16) (harg5 : arg5.IsWhole)
  (arg6 : Memref sig .tc .vmem S1x512x2048 .bf16) (harg6 : arg6.IsWhole)
  (arg7 : Memref sig .tc .vmem S1x512x2048 .f32) (harg7 : arg7.IsWhole)
  (arg8 : Memref sig .tc .vmem S512x2048 .f32) (harg8 : arg8.IsWhole)
  (x0 : Vec F S1x512x2048 .bf16) (x1 : Vec F S1x2048x512 .bf16) (x2 : Vec F S1x2048x512 .bf16) (x3 : Vec F S1x512x2048 .bf16)

/-- First chunk of a row block: the accumulator is zeroed, read back, and the chunk's contribution added. -/
theorem acc_first (hc0 : cond0_0 i) (hc1 : ¬cond0_1 i) :
    sout0_A_0 c i arg3 harg3 arg4 harg4 arg5 harg5 arg6 harg6 arg7 harg7 arg8 harg8 hc0 hc1 x0 x1 x2 x3
      = k0_pay2 x0 x1 x2 x3 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x2048) hz2]
  simp only [View.readAt_eq_ld, harg3.read_unread, harg4.read_unread, harg5.read_unread, harg6.read_unread,
    View.ld_unit_zero (S := S1x512x2048) hz3, View.ld_unit_zero (S := S1x2048x512) hz3, View.ld_unit_zero (S := S512x2048) hz2, View.readCov_unit_zero (S := S512x2048) _ hz2]

/-- A middle chunk: the contribution is added to what the point before left. -/
theorem acc_mid (hc0 : ¬cond0_0 i) (hc1 : ¬cond0_1 i) (xs0 : Vec F S512x2048 .f32) :
    sout0_B_0 c i arg3 harg3 arg4 harg4 arg5 harg5 arg6 harg6 arg7 harg7 arg8 harg8 hc0 hc1 x0 x1 x2 x3 xs0
      = k0_pay2 x0 x1 x2 x3 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hz2]
  simp only [View.readAt_eq_ld, harg3.read_unread, harg4.read_unread, harg5.read_unread, harg6.read_unread,
    View.ld_unit_zero (S := S1x512x2048) hz3, View.ld_unit_zero (S := S1x2048x512) hz3, View.ld_unit_zero (S := S512x2048) hz2, harg8.read_unread]

/-- The last chunk leaves the same in the accumulator … -/
theorem acc_last (hc0 : ¬cond0_0 i) (hc1 : cond0_1 i) (xs0 : Vec F S512x2048 .f32) :
    sout0_C_0 c i arg3 harg3 arg4 harg4 arg5 harg5 arg6 harg6 arg7 harg7 arg8 harg8 hc0 hc1 x0 x1 x2 x3 xs0
      = k0_pay2 x0 x1 x2 x3 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread,
    View.ld_unit_zero (S := S1x512x2048) hz3, View.ld_unit_zero (S := S1x2048x512) hz3, View.ld_unit_zero (S := S512x2048) hz2, harg8.read_unread]

/-- … and copies it, under a leading unit axis, to the output block. -/
theorem out_last (hc0 : ¬cond0_0 i) (hc1 : cond0_1 i) (xs0 : Vec F S512x2048 .f32) :
    out0_C_4 c i arg3 harg3 arg4 harg4 arg5 harg5 arg6 harg6 arg7 harg7 arg8 harg8 hc0 hc1 x0 x1 x2 x3 xs0
      = k0_pay3 (k0_pay2 x0 x1 x2 x3 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz3]
  simp only [View.readAt_eq_ld, harg3.read_unread, harg4.read_unread, harg5.read_unread, harg6.read_unread,
    View.ld_unit_zero (S := S1x512x2048) hz3, View.ld_unit_zero (S := S1x2048x512) hz3, View.ld_unit_zero (S := S512x2048) hz2, harg8.read_unread, View.readCov_unit_zero (S := S512x2048) _ hz2]

end

end Cert.KernelIdeal.Pieces

end
-- ==== Proof.Payload.lean ====
/-
  The kernel body's arithmetic read at an index, on the extended reals.

  At one grid point the body holds a [512, 2048] block of activations, two [2048, 512] chunks of the input projections and a
  [512, 2048] chunk of the output projection. It adds to the running [512, 2048] accumulator the chunk's contribution
  `Σ_k ((g_k · σ(g_k)) · u_k) · up[k, d]`, where `g_k` and `u_k` are row `r` of the activations against column `k` of the
  two input chunks. Changes of float format are the identity on the extended reals, and a matrix product into a zero
  accumulator is the plain sum of products.
-/
import proofs.«149001_j51711406244127_1_alg».proof.Proof.Gen.KernelIdeal.Skeleton
import proofs.«149001_j51711406244127_1_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- Row `r` of an activation block against column `k` of a projection chunk. -/
def blkProj (xb : Vec Ideal S1x512x2048 .bf16) (wb : Vec Ideal S1x2048x512 .bf16) (r k : Fin 512) : EReal :=
  ∑ j : Fin 2048, xb (ix3 0 r j) * wb (ix3 0 j k)

/-- One chunk's contribution to entry `(r, d)` of the accumulator. -/
def blkTerm (xb : Vec Ideal S1x512x2048 .bf16) (gb db : Vec Ideal S1x2048x512 .bf16) (ub : Vec Ideal S1x512x2048 .bf16)
    (r : Fin 512) (d : Fin 2048) : EReal :=
  ∑ k : Fin 512, (blkProj xb gb r k * Ideal.logistic (blkProj xb gb r k) * blkProj xb db r k) * ub (ix3 0 k d)

/-! ### Layout: a block under a leading unit axis -/

/-- A `[1, 512, 2048]` block viewed as `[512, 2048]` reads `(0, r, j)` at `(r, j)`. -/
private theorem dropUnit_act {α : Type} (v : S1x512x2048.Idx → α) (h : S1x512x2048.ShapeCasts S512x2048) (r : Fin 512) (j : Fin 2048) :
    shapeCast S512x2048 v h (ix2 r j) = v (ix3 0 r j) :=
  shapeCast_apply v h _ _ (by
    rw [Shape.rowMajor_val_three, Shape.rowMajor_val_two]
    show (0 * 512 + r.val) * 2048 + j.val = r.val * 2048 + j.val
    omega)

/-- A `[1, 2048, 512]` block viewed as `[2048, 512]` reads `(0, j, k)` at `(j, k)`. -/
private theorem dropUnit_in {α : Type} (v : S1x2048x512.Idx → α) (h : S1x2048x512.ShapeCasts S2048x512) (j : Fin 2048) (k : Fin 512) :
    shapeCast S2048x512 v h (ix2 j k) = v (ix3 0 j k) :=
  shapeCast_apply v h _ _ (by
    rw [Shape.rowMajor_val_three, Shape.rowMajor_val_two]
    show (0 * 2048 + j.val) * 512 + k.val = j.val * 512 + k.val
    omega)

/-- A `[512, 2048]` array stored as a `[1, 512, 2048]` block reads `(r, d)` at `(0, r, d)`. -/
private theorem addUnit_act {α : Type} (v : S512x2048.Idx → α) (h : S512x2048.ShapeCasts S1x512x2048) (r : Fin 512) (d : Fin 2048) :
    shapeCast S1x512x2048 v h (ix3 0 r d) = v (ix2 r d) :=
  shapeCast_apply v h _ _ (by
    rw [Shape.rowMajor_val_three, Shape.rowMajor_val_two]
    show r.val * 2048 + d.val = (0 * 512 + r.val) * 2048 + d.val
    omega)

/-! ### The two matrix products: operand indices along the one contracted axis -/

private theorem lhs_in_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
private theorem lhs_in_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
private theorem rhs_in_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
private theorem rhs_in_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- An input projection into a zero accumulator: entry `(r, c)` is row `r` of the activations against column `c` of the chunk. -/
private theorem matmul_in_apply (a : FVec Ideal S512x2048 .bf16) (b : FVec Ideal S2048x512 .bf16) (r : Fin 512) (c : Fin 512) :
    matmul dot_S512x2048_S2048x512_S512x512_1_0_0_1_n_n none a b (constant S512x512 .f32 0x00000000#32) (ix2 r c)
      = ∑ k : Fin 2048, a (ix2 r k) * b (ix2 k c) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 r c) ((contrEquiv1 dot_S512x2048_S2048x512_S512x512_1_0_0_1_n_n 2048 rfl rfl).symm k) = ix2 r k := funext fun x => Fin.ext (by
    match x with
    | ⟨0, _⟩ => exact lhs_in_0 _ _
    | ⟨1, _⟩ => exact (lhs_in_1 _ _).trans hk)
  have er : dot_S512x2048_S2048x512_S512x512_1_0_0_1_n_n.rhsIdx (ix2 r c) ((contrEquiv1 dot_S512x2048_S2048x512_S512x512_1_0_0_1_n_n 2048 rfl rfl).symm k) = ix2 k c := funext fun x => Fin.ext (by
    match x with
    | ⟨0, _⟩ => exact (rhs_in_0 _ _).trans hk
    | ⟨1, _⟩ => exact rhs_in_1 _ _)
  rw [el, er]

private theorem lhs_out_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
private theorem lhs_out_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
private theorem rhs_out_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
private theorem rhs_out_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- The output projection into a zero accumulator: entry `(r, c)` is row `r` of the hidden block against column `c` of the chunk. -/
private theorem matmul_out_apply (a : FVec Ideal S512x512 .bf16) (b : FVec Ideal S512x2048 .bf16) (r : Fin 512) (c : Fin 2048) :
    matmul dot_S512x512_S512x2048_S512x2048_1_0_0_1_n_n none a b (constant S512x2048 .f32 0x00000000#32) (ix2 r c)
      = ∑ k : Fin 512, a (ix2 r k) * b (ix2 k c) := by
  simp only [matmul]
  rw [Ideal.matmul_constant_zero_apply, ← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 r c) ((contrEquiv1 dot_S512x512_S512x2048_S512x2048_1_0_0_1_n_n 512 rfl rfl).symm k) = ix2 r k := funext fun x => Fin.ext (by
    match x with
    | ⟨0, _⟩ => exact lhs_out_0 _ _
    | ⟨1, _⟩ => exact (lhs_out_1 _ _).trans hk)
  have er : dot_S512x512_S512x2048_S512x2048_1_0_0_1_n_n.rhsIdx (ix2 r c) ((contrEquiv1 dot_S512x512_S512x2048_S512x2048_1_0_0_1_n_n 512 rfl rfl).symm k) = ix2 k c := funext fun x => Fin.ext (by
    match x with
    | ⟨0, _⟩ => exact (rhs_out_0 _ _).trans hk
    | ⟨1, _⟩ => exact rhs_out_1 _ _)
  rw [el, er]

/-- The logistic function applied entrywise. -/
private theorem logistic_apply {s : Shape} {φ : FTy} (a : FVec Ideal s φ) (i : s.Idx) :
    logistic a i = Ideal.logistic (a i) := rfl

/-! ### The three stored values -/

/-- The reset value of the accumulator is zero everywhere. -/
theorem pay1_apply (i : S512x2048.Idx) : k0_pay1 (F := Ideal) i = 0 := by
  unfold k0_pay1
  rw [shapeCast_self, broadcast_apply]
  exact Ideal.ofBits_zero_f32

/-- The accumulating store: the old accumulator plus this chunk's contribution. -/
theorem pay2_apply (xb : Vec Ideal S1x512x2048 .bf16) (gb db : Vec Ideal S1x2048x512 .bf16) (ub : Vec Ideal S1x512x2048 .bf16)
    (acc : Vec Ideal S512x2048 .f32) (r : Fin 512) (d : Fin 2048) :
    k0_pay2 (F := Ideal) xb gb db ub acc (ix2 r d) = acc (ix2 r d) + blkTerm xb gb db ub r d := by
  unfold k0_pay2 blkTerm
  rw [shapeCast_self, addf_apply, matmul_out_apply]
  refine congrArg (acc (ix2 r d) + ·) (Finset.sum_congr rfl fun k _ => ?_)
  rw [truncf_apply, mulf_apply, mulf_apply, logistic_apply, matmul_in_apply, matmul_in_apply, dropUnit_act]
  simp only [blkProj, dropUnit_act, dropUnit_in]

/-- The final store writes the accumulator out under a leading unit axis. -/
theorem pay3_apply (acc : Vec Ideal S512x2048 .f32) (r : Fin 512) (d : Fin 2048) :
    k0_pay3 (F := Ideal) acc (ix3 0 r d) = acc (ix2 r d) := by
  unfold k0_pay3
  exact addUnit_act acc _ r d

end Cert.KernelIdeal.Body

end
-- ==== Proof.Fold.lean ====
/-
  The accumulator over a row block's eight chunks, as a sum.

  Points `8q, 8q+1, …, 8q+7` of the grid visit the eight chunks of one row block. The accumulator is reset to zero plus
  the first chunk's contribution at point `8q` and gains one chunk's contribution at each later point, so after point
  `8q + j` it holds `0 + Σ_{s ≤ j}` of the contributions of points `8q … 8q + s`. At the last point the output block is
  the accumulator, copied.
-/
import proofs.«149001_j51711406244127_1_alg».proof.Proof.Gen.KernelIdeal.Value
import proofs.«149001_j51711406244127_1_alg».proof.Proof.Pieces
import proofs.«149001_j51711406244127_1_alg».proof.Proof.Payload
import Idealize.ShloMosaic.Lib.Pipeline.Value
import Idealize.ShloMosaic.Lib.ValueIdx

noncomputable section

namespace Cert.KernelIdeal.Fold

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The four input blocks a grid point sees, at their literal types. -/
abbrev xblk (c : Dev nD) (t : Fin cfg0.N) : Vec Ideal S1x512x2048 .bf16 := iblk m c 0 t
abbrev gblk (c : Dev nD) (t : Fin cfg0.N) : Vec Ideal S1x2048x512 .bf16 := iblk m c 1 t
abbrev dblk (c : Dev nD) (t : Fin cfg0.N) : Vec Ideal S1x2048x512 .bf16 := iblk m c 2 t
abbrev ublk (c : Dev nD) (t : Fin cfg0.N) : Vec Ideal S1x512x2048 .bf16 := iblk m c 3 t

/-- The contribution of grid point `n`'s chunk to the accumulator (zero past the grid, where it is never used). -/
def addend (c : Dev nD) (n : ℕ) (i : S512x2048.Idx) : EReal :=
  if h : n < cfg0.N then
    Body.blkTerm (xblk m c ⟨n, h⟩) (gblk m c ⟨n, h⟩) (dblk m c ⟨n, h⟩) (ublk m c ⟨n, h⟩) (i 0) (i 1)
  else 0

/-- At the first chunk of a row block the accumulator becomes the accumulating store's value over the zero block. -/
theorem step_reset (c : Dev nD) (n : ℕ) (hb : n < cfg0.N) (acc : Vec Ideal S512x2048 .f32) (h0 : n % 8 = 0) :
    Value.scAt0_0 m c n hb acc
      = k0_pay2 (xblk m c ⟨n, hb⟩) (gblk m c ⟨n, hb⟩) (dblk m c ⟨n, hb⟩) (ublk m c ⟨n, hb⟩) (k0_pay1 (F := Ideal)) := by
  have h1 : ¬n % 8 = 7 := by omega
  unfold Value.scAt0_0
  rw [dif_pos h0, dif_neg h1]
  exact Pieces.acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) _ _

/-- At every other chunk it becomes that value over what the point before left. -/
theorem step_acc (c : Dev nD) (n : ℕ) (hb : n < cfg0.N) (acc : Vec Ideal S512x2048 .f32) (h0 : ¬n % 8 = 0) :
    Value.scAt0_0 m c n hb acc
      = k0_pay2 (xblk m c ⟨n, hb⟩) (gblk m c ⟨n, hb⟩) (dblk m c ⟨n, hb⟩) (ublk m c ⟨n, hb⟩) acc := by
  unfold Value.scAt0_0
  rw [dif_neg h0]
  by_cases h1 : n % 8 = 7
  · rw [dif_pos h1]
    exact Pieces.acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) _ _ acc
  · rw [dif_neg h1]
    exact Pieces.acc_mid c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) _ _ acc

/-- The accumulator after any point: zero plus the contributions of its row block's chunks so far. -/
theorem scratch_after (c : Dev nD) (t : Fin cfg0.N) (i : S512x2048.Idx) :
    (outsAt0 m c t.val t.isLt).2 i
      = 0 + ∑ s ∈ Finset.range (t.val % 8 + 1), addend m c (8 * (t.val / 8) + s) i := by
  rw [Value.soutsAt0_0_eq]
  refine Pipeline.accAt_add_apply _ _ (fun _ => (0 : EReal)) (addend m c) (8 * (t.val / 8)) 7 ?_ ?_ (t.val % 8)
    (by omega) _ i
  · intro h j
    show Value.scAt0_0 m c (8 * (t.val / 8)) h _ j = 0 + addend m c (8 * (t.val / 8)) j
    rw [step_reset m c _ h _ (by omega)]
    obtain ⟨r, d, rfl⟩ : ∃ (r : Fin 512) (d : Fin 2048), j = ix2 r d := ⟨j 0, j 1, eq_ix2 j⟩
    rw [Body.pay2_apply, Body.pay1_apply]
    unfold addend
    rw [dif_pos h]
  · intro n h acc j hlt hle
    rw [step_acc m c n h acc (by omega)]
    obtain ⟨r, d, rfl⟩ : ∃ (r : Fin 512) (d : Fin 2048), j = ix2 r d := ⟨j 0, j 1, eq_ix2 j⟩
    rw [Body.pay2_apply]
    unfold addend
    rw [dif_pos h]

/-- At the last chunk of a row block the output block is the accumulator under a leading unit axis. -/
theorem out_at_last (c : Dev nD) (t : Fin cfg0.N) (h1 : t.val % 8 = 7) :
    (outsAt0 m c t.val t.isLt).1 = k0_pay3 ((outsAt0 m c t.val t.isLt).2) := by
  have h0 : ¬t.val % 8 = 0 := by omega
  rw [outsAt0_C m c t h0 h1]
  dsimp only
  rw [Pieces.out_last, Pieces.acc_last]

end Cert.KernelIdeal.Fold

end
-- ==== Proof.Blocks.lean ====
/-
  Where a grid point's blocks sit in the whole arrays, and its chunk's contribution in terms of the argument arrays.

  Point `n` of the 8 × 4 × 8 grid works on expert `n / 32`, row block `n / 8 % 4` (rows `512·(n / 8 % 4) …`) and hidden
  chunk `n % 8` (hidden units `512·(n % 8) …`). The activations' block is rows of the row block, all model columns; the two
  input projections' blocks are all model rows, the chunk's hidden columns; the output projection's block is the chunk's
  hidden rows, all model columns. The arrays the kernel sees are the arguments after a change of float format, which is the
  identity on the extended reals. So the chunk's contribution to entry `(r, d)` of the accumulator is the sum, over the
  chunk's 512 hidden units, of the specification's addends for output `(n / 32, 512·(n / 8 % 4) + r, d)`.
-/
import proofs.«149001_j51711406244127_1_alg».proof.Proof.Fold
import proofs.«149001_j51711406244127_1_alg».proof.Proof.Spec
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The four arrays the region stages from, at their literal types. -/
abbrev xarr (c : Dev nD) : Vec Ideal S8x2048x2048 .bf16 := V m c main_v0
abbrev garr (c : Dev nD) : Vec Ideal S8x2048x4096 .bf16 := V m c main_v1
abbrev darr (c : Dev nD) : Vec Ideal S8x2048x4096 .bf16 := V m c main_v2
abbrev uarr (c : Dev nD) : Vec Ideal S8x4096x2048 .bf16 := V m c main_v3

/-- Each is its argument: the change of float format before the region is the identity. -/
theorem xarr_eq (c : Dev nD) : (xarr m c : S8x2048x2048.Idx → EReal) = m ((c : Thread nD τ).loc main_arg0) := by
  dsimp only [xarr, V, hostOps0]; after_results; rfl
theorem garr_eq (c : Dev nD) : (garr m c : S8x2048x4096.Idx → EReal) = m ((c : Thread nD τ).loc main_arg1) := by
  dsimp only [garr, V, hostOps0]; after_results; rfl
theorem darr_eq (c : Dev nD) : (darr m c : S8x2048x4096.Idx → EReal) = m ((c : Thread nD τ).loc main_arg2) := by
  dsimp only [darr, V, hostOps0]; after_results; rfl
theorem uarr_eq (c : Dev nD) : (uarr m c : S8x4096x2048.Idx → EReal) = m ((c : Thread nD τ).loc main_arg3) := by
  dsimp only [uarr, V, hostOps0]; after_results; rfl

/-- The printed index maps in closed form, decided over the grid's 256 points. -/
theorem idx_facts : ∀ t : Fin cfg0.N,
    (win0_0.index t (0 : Fin 3) = t.val / 32 ∧ win0_0.index t (1 : Fin 3) = t.val / 8 % 4 ∧ win0_0.index t (2 : Fin 3) = 0)
    ∧ (win0_1.index t (0 : Fin 3) = t.val / 32 ∧ win0_1.index t (1 : Fin 3) = 0 ∧ win0_1.index t (2 : Fin 3) = t.val % 8)
    ∧ (win0_2.index t (0 : Fin 3) = t.val / 32 ∧ win0_2.index t (1 : Fin 3) = 0 ∧ win0_2.index t (2 : Fin 3) = t.val % 8)
    ∧ (win0_3.index t (0 : Fin 3) = t.val / 32 ∧ win0_3.index t (1 : Fin 3) = t.val % 8 ∧ win0_3.index t (2 : Fin 3) = 0)
    ∧ (win0_4.index t (0 : Fin 3) = t.val / 32 ∧ win0_4.index t (1 : Fin 3) = t.val / 8 % 4 ∧ win0_4.index t (2 : Fin 3) = 0) :=
  (by decide +kernel : ∀ t : Fin grid0.N, _)

/-- The activations' block: rows of the point's row block. -/
theorem xblk_apply (c : Dev nD) (t : Fin cfg0.N) (r : Fin 512) (j : Fin 2048) (e : Fin 8) (row : Fin 2048)
    (he : e.val = t.val / 32) (hrow : row.val = 512 * (t.val / 8 % 4) + r.val) :
    Fold.xblk m c t (ix3 0 r j) = xarr m c (ix3 e row j) := by
  obtain ⟨⟨e0, e1, e2⟩, -⟩ := idx_facts t
  show V m c main_v0 (((cfg0.win 0).blk t).view.emb (ix3 0 r j)) = V m c main_v0 (ix3 e row j)
  congr 1
  funext a; apply Fin.ext
  match a with
  | ⟨0, _⟩ => show win0_0.index t (0 : Fin 3) * 1 + 1 * 0 = e.val; omega
  | ⟨1, _⟩ => show win0_0.index t (1 : Fin 3) * 512 + 1 * r.val = row.val; omega
  | ⟨2, _⟩ => show win0_0.index t (2 : Fin 3) * 2048 + 1 * j.val = j.val; omega

/-- The gate projection's block: the chunk's hidden columns. -/
theorem gblk_apply (c : Dev nD) (t : Fin cfg0.N) (j : Fin 2048) (k : Fin 512) (e : Fin 8) (h : Fin 4096)
    (he : e.val = t.val / 32) (hh : h.val = 512 * (t.val % 8) + k.val) :
    Fold.gblk m c t (ix3 0 j k) = garr m c (ix3 e j h) := by
  obtain ⟨-, ⟨e0, e1, e2⟩, -⟩ := idx_facts t
  show V m c main_v1 (((cfg0.win 1).blk t).view.emb (ix3 0 j k)) = V m c main_v1 (ix3 e j h)
  congr 1
  funext a; apply Fin.ext
  match a with
  | ⟨0, _⟩ => show win0_1.index t (0 : Fin 3) * 1 + 1 * 0 = e.val; omega
  | ⟨1, _⟩ => show win0_1.index t (1 : Fin 3) * 2048 + 1 * j.val = j.val; omega
  | ⟨2, _⟩ => show win0_1.index t (2 : Fin 3) * 512 + 1 * k.val = h.val; omega

/-- The linear projection's block: the same columns of the other weight array. -/
theorem dblk_apply (c : Dev nD) (t : Fin cfg0.N) (j : Fin 2048) (k : Fin 512) (e : Fin 8) (h : Fin 4096)
    (he : e.val = t.val / 32) (hh : h.val = 512 * (t.val % 8) + k.val) :
    Fold.dblk m c t (ix3 0 j k) = darr m c (ix3 e j h) := by
  obtain ⟨-, -, ⟨e0, e1, e2⟩, -⟩ := idx_facts t
  show V m c main_v2 (((cfg0.win 2).blk t).view.emb (ix3 0 j k)) = V m c main_v2 (ix3 e j h)
  congr 1
  funext a; apply Fin.ext
  match a with
  | ⟨0, _⟩ => show win0_2.index t (0 : Fin 3) * 1 + 1 * 0 = e.val; omega
  | ⟨1, _⟩ => show win0_2.index t (1 : Fin 3) * 2048 + 1 * j.val = j.val; omega
  | ⟨2, _⟩ => show win0_2.index t (2 : Fin 3) * 512 + 1 * k.val = h.val; omega

/-- The output projection's block: the chunk's hidden rows. -/
theorem ublk_apply (c : Dev nD) (t : Fin cfg0.N) (k : Fin 512) (d : Fin 2048) (e : Fin 8) (h : Fin 4096)
    (he : e.val = t.val / 32) (hh : h.val = 512 * (t.val % 8) + k.val) :
    Fold.ublk m c t (ix3 0 k d) = uarr m c (ix3 e h d) := by
  obtain ⟨-, -, -, ⟨e0, e1, e2⟩, -⟩ := idx_facts t
  show V m c main_v3 (((cfg0.win 3).blk t).view.emb (ix3 0 k d)) = V m c main_v3 (ix3 e h d)
  congr 1
  funext a; apply Fin.ext
  match a with
  | ⟨0, _⟩ => show win0_3.index t (0 : Fin 3) * 1 + 1 * 0 = e.val; omega
  | ⟨1, _⟩ => show win0_3.index t (1 : Fin 3) * 512 + 1 * k.val = h.val; omega
  | ⟨2, _⟩ => show win0_3.index t (2 : Fin 3) * 2048 + 1 * d.val = d.val; omega

/-- The specification's addend over natural-number coordinates (zero outside the arrays, where it is never used). -/
def termN (x : Experts.SAct.Idx → EReal) (gate down : Experts.SIn.Idx → EReal) (up : Experts.SOut.Idx → EReal)
    (e row d h : ℕ) : EReal :=
  if H : e < 8 ∧ row < 2048 ∧ d < 2048 ∧ h < 4096 then
    Experts.term x gate down up ⟨e, H.1⟩ ⟨row, H.2.1⟩ ⟨d, H.2.2.1⟩ ⟨h, H.2.2.2⟩
  else 0

/-- A block projection entry is the whole arrays' projection entry at the block's place. -/
theorem blkProj_gate (c : Dev nD) (t : Fin cfg0.N) (r k : Fin 512) (e : Fin 8) (row : Fin 2048) (h : Fin 4096)
    (he : e.val = t.val / 32) (hrow : row.val = 512 * (t.val / 8 % 4) + r.val) (hh : h.val = 512 * (t.val % 8) + k.val) :
    Body.blkProj (Fold.xblk m c t) (Fold.gblk m c t) r k
      = Experts.proj (m ((c : Thread nD τ).loc main_arg0)) (m ((c : Thread nD τ).loc main_arg1)) e row h := by
  unfold Body.blkProj Experts.proj
  refine Finset.sum_congr rfl fun j _ => ?_
  rw [xblk_apply m c t r j e row he hrow, gblk_apply m c t j k e h he hh, xarr_eq, garr_eq]

theorem blkProj_down (c : Dev nD) (t : Fin cfg0.N) (r k : Fin 512) (e : Fin 8) (row : Fin 2048) (h : Fin 4096)
    (he : e.val = t.val / 32) (hrow : row.val = 512 * (t.val / 8 % 4) + r.val) (hh : h.val = 512 * (t.val % 8) + k.val) :
    Body.blkProj (Fold.xblk m c t) (Fold.dblk m c t) r k
      = Experts.proj (m ((c : Thread nD τ).loc main_arg0)) (m ((c : Thread nD τ).loc main_arg2)) e row h := by
  unfold Body.blkProj Experts.proj
  refine Finset.sum_congr rfl fun j _ => ?_
  rw [xblk_apply m c t r j e row he hrow, dblk_apply m c t j k e h he hh, xarr_eq, darr_eq]

/-- The chunk's contribution of point `n` to accumulator entry `(r, d)`, over the argument arrays. -/
theorem addend_eq (c : Dev nD) (n : ℕ) (hn : n < cfg0.N) (r : Fin 512) (d : Fin 2048) :
    Fold.addend m c n (ix2 r d)
      = ∑ k : Fin 512, termN (m ((c : Thread nD τ).loc main_arg0)) (m ((c : Thread nD τ).loc main_arg1))
          (m ((c : Thread nD τ).loc main_arg2)) (m ((c : Thread nD τ).loc main_arg3))
          (n / 32) (512 * (n / 8 % 4) + r.val) d.val (512 * (n % 8) + k.val) := by
  have hN : n < 256 := lt_of_lt_of_eq hn N_0
  unfold Fold.addend
  rw [dif_pos hn]
  show Body.blkTerm _ _ _ _ r d = _
  unfold Body.blkTerm
  refine Finset.sum_congr rfl fun k _ => ?_
  have hr := r.isLt
  have hd := d.isLt
  have hk := k.isLt
  have H : n / 32 < 8 ∧ 512 * (n / 8 % 4) + r.val < 2048 ∧ d.val < 2048 ∧ 512 * (n % 8) + k.val < 4096 := by
    refine ⟨by omega, by omega, hd, by omega⟩
  unfold termN
  rw [dif_pos H]
  unfold Experts.term Experts.hidden
  rw [blkProj_gate m c ⟨n, hn⟩ r k ⟨n / 32, H.1⟩ ⟨512 * (n / 8 % 4) + r.val, H.2.1⟩ ⟨512 * (n % 8) + k.val, H.2.2.2⟩ rfl rfl rfl,
    blkProj_down m c ⟨n, hn⟩ r k ⟨n / 32, H.1⟩ ⟨512 * (n / 8 % 4) + r.val, H.2.1⟩ ⟨512 * (n % 8) + k.val, H.2.2.2⟩ rfl rfl rfl,
    ublk_apply m c ⟨n, hn⟩ k d ⟨n / 32, H.1⟩ ⟨512 * (n % 8) + k.val, H.2.2.2⟩ rfl rfl, uarr_eq]

end Cert.KernelIdeal.Blocks

end
-- ==== Proof.Final.lean ====
/-
  The kernel's result array is the experts' output of its four arguments.

  The output's [1, 512, 2048] blocks are written back at the last chunk of each row block, point `t` with `t % 8 = 7`; what
  is written back is the accumulator, which by then holds zero plus the contributions of the row block's eight chunks. Entry
  `(r, d)` of that block is output `(t / 32, 512·(t / 8 % 4) + r, d)`, and the eight chunks' sums of 512 addends are the
  whole hidden axis' sum of 4096 addends. The 32 written blocks tile the array, so the array ends holding the specification.
-/
import proofs.«149001_j51711406244127_1_alg».proof.Proof.Blocks

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specification at core `c`'s argument arrays. -/
abbrev result (c : Dev nD) : S8x2048x2048.Idx → EReal :=
  Experts.expertOut (m ((c : Thread nD τ).loc main_arg0)) (m ((c : Thread nD τ).loc main_arg1))
    (m ((c : Thread nD τ).loc main_arg2)) (m ((c : Thread nD τ).loc main_arg3))

/-- One entry of the block a last-chunk point writes back is the specification at the entry's place in the array. -/
theorem out_entry (c : Dev nD) (t : Fin cfg0.N) (h1 : t.val % 8 = 7) (r : Fin 512) (d : Fin 2048) (i : S8x2048x2048.Idx)
    (hi0 : (i 0).val = t.val / 32) (hi1 : (i 1).val = 512 * (t.val / 8 % 4) + r.val) (hi2 : (i 2).val = d.val) :
    k0_pay3 (F := Ideal) ((outsAt0 m c t.val t.isLt).2) (ix3 0 r d) = result m c i := by
  have hN : t.val < 256 := lt_of_lt_of_eq t.isLt N_0
  rw [Body.pay3_apply, Fold.scratch_after, h1, zero_add]
  have step : ∀ s ∈ Finset.range (7 + 1), Fold.addend m c (8 * (t.val / 8) + s) (ix2 r d)
      = ∑ k : Fin 512, Blocks.termN (m ((c : Thread nD τ).loc main_arg0)) (m ((c : Thread nD τ).loc main_arg1))
          (m ((c : Thread nD τ).loc main_arg2)) (m ((c : Thread nD τ).loc main_arg3))
          (t.val / 32) (512 * (t.val / 8 % 4) + r.val) d.val (512 * s + k.val) := by
    intro s hs
    have hs8 : s < 8 := Finset.mem_range.mp hs
    have hlt : 8 * (t.val / 8) + s < cfg0.N := lt_of_lt_of_eq (by omega : 8 * (t.val / 8) + s < 256) N_0.symm
    rw [Blocks.addend_eq m c _ hlt r d]
    have e1 : (8 * (t.val / 8) + s) / 32 = t.val / 32 := by omega
    have e2 : (8 * (t.val / 8) + s) / 8 % 4 = t.val / 8 % 4 := by omega
    have e3 : (8 * (t.val / 8) + s) % 8 = s := by omega
    rw [e1, e2, e3]
  rw [Finset.sum_congr rfl step]
  rw [Experts.sum_chunks (fun h => Blocks.termN (m ((c : Thread nD τ).loc main_arg0)) (m ((c : Thread nD τ).loc main_arg1))
          (m ((c : Thread nD τ).loc main_arg2)) (m ((c : Thread nD τ).loc main_arg3))
          (t.val / 32) (512 * (t.val / 8 % 4) + r.val) d.val h)]
  unfold result Experts.expertOut
  refine Finset.sum_congr rfl fun h _ => ?_
  have hr := r.isLt
  have H : t.val / 32 < 8 ∧ 512 * (t.val / 8 % 4) + r.val < 2048 ∧ d.val < 2048 ∧ h.val < 4096 :=
    ⟨by omega, by omega, d.isLt, h.isLt⟩
  unfold Blocks.termN
  rw [dif_pos H]
  have a0 : (⟨t.val / 32, H.1⟩ : Fin 8) = i 0 := Fin.ext hi0.symm
  have a1 : (⟨512 * (t.val / 8 % 4) + r.val, H.2.1⟩ : Fin 2048) = i 1 := Fin.ext hi1.symm
  have a2 : (⟨d.val, H.2.2.1⟩ : Fin 2048) = i 2 := Fin.ext hi2.symm
  rw [a0, a1, a2]

/-- What a last-chunk point writes back is its block of the specification. -/
theorem flushed_eq (c : Dev nD) (t : Fin cfg0.N) (hf : (cfg0.win 4).flush t = true) :
    (dats m 0 c).flushed 4 t = ((cfg0.win 4).blk t).view.read (Elt Ideal) (result m c) := by
  have h1 : t.val % 8 = 7 := (flush0_4 t).mp hf
  obtain ⟨-, -, -, -, ⟨e0, e1, e2⟩⟩ := Blocks.idx_facts t
  rw [Value.flushed4]
  show (outsAt0 m c t.val t.isLt).1 = _
  rw [Fold.out_at_last m c t h1]
  funext y
  have hy0 : (y 0).val = 0 := by have h : (y 0).val < 1 := (y 0).isLt; omega
  have hy : y = ix3 (n0 := 1) (n1 := 512) (n2 := 2048) 0 (y 1) (y 2) := by
    funext a
    match a with
    | ⟨0, _⟩ => exact Fin.ext hy0
    | ⟨1, _⟩ => rfl
    | ⟨2, _⟩ => rfl
  refine (congrArg (k0_pay3 (F := Ideal) ((outsAt0 m c t.val t.isLt).2)) hy).trans ?_
  show _ = result m c (((cfg0.win 4).blk t).view.emb y)
  refine out_entry m c t h1 (y 1) (y 2) _ ?_ ?_ ?_
  · show win0_4.index t (0 : Fin 3) * 1 + 1 * (y 0).val = t.val / 32
    omega
  · show win0_4.index t (1 : Fin 3) * 512 + 1 * (y 1).val = 512 * (t.val / 8 % 4) + (y 1).val
    omega
  · show win0_4.index t (2 : Fin 3) * 2048 + 1 * (y 2).val = (y 2).val
    omega

/-- An index of the array is in point `t`'s block iff each coordinate is in the block's range on its axis. -/
theorem mem_blk (t : Fin cfg0.N) (i : S8x2048x2048.Idx) :
    i ∈ ((cfg0.win 4).blk t).view.set
      ↔ ∀ a : Fin 3, win0_4.index t a * S1x512x2048.size a ≤ (i a).val
          ∧ (i a).val < win0_4.index t a * S1x512x2048.size a + S1x512x2048.size a := by
  show i ∈ ((View.whole main_v4).slice (win0_4.rect t)).set ↔ _
  rw [View.set_slice_whole, Rect.mem_set_unit]
  exact Iff.rfl

/-- Every index of the result array lies in the block some last-chunk point writes back. -/
theorem cover (i : S8x2048x2048.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 2048 := (i 2).isLt
  have hN : cfg0.N = 256 := N_0
  let t : Fin cfg0.N := ⟨32 * (i 0).val + 8 * ((i 1).val / 512) + 7, by rw [hN]; omega⟩
  have ht : t.val = 32 * (i 0).val + 8 * ((i 1).val / 512) + 7 := rfl
  obtain ⟨-, -, -, -, ⟨e0, e1, e2⟩⟩ := Blocks.idx_facts t
  refine ⟨t, (flush0_4 t).mpr (by omega), ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 512 ≤ (i 1).val ∧ (i 1).val < win0_4.index t (1 : Fin 3) * 512 + 512
    omega
  | ⟨2, _⟩ =>
    show win0_4.index t (2 : Fin 3) * 2048 ≤ (i 2).val ∧ (i 2).val < win0_4.index t (2 : Fin 3) * 2048 + 2048
    omega

/-- The result array after the run is the specification. -/
theorem final (c : Dev nD) : (dats m 0 c).arrAt 4 cfg0.N = result m c :=
  (dats m 0 c).arrAt_eq_of_cover 4 (result m c) (fun t hf => flushed_eq m c t hf) cover

/-- The kernel's run with its result named: the specification of the arguments, which end unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Final

end
-- ==== Proof.lean ====
/-
  A batch of eight gated feed-forward experts, tiled, against the plain formula.

  For each expert the kernel computes `(silu(x·gate) ∘ (x·down)) · up` tile by tile: a grid of 8 experts × 4 row blocks of
  512 tokens × 8 chunks of 512 hidden units, an accumulator of one [512, 2048] output block carried across a row block's
  eight chunks (zeroed at the first, copied to the output block at the last). The reference contracts the whole hidden axis
  of 4096 at once. On the extended reals both are, at output `(e, t, d)`,
  `Σ_h ((g·σ(g))·u)[e,t,h] · up[e,h,d]` with `g = Σ_j x[e,t,j]·gate[e,j,h]` and `u = Σ_j x[e,t,j]·down[e,j,h]`:
  changes of float format are the identity, the logistic function is `1 / (1 + exp(-g))` by definition, and the
  kernel's `0 + Σ_chunks Σ_{k<512}` is the reference's `Σ_{h<4096}` because addition of extended reals is commutative and
  associative — no finiteness of the inputs is used. The three programs' runs terminate without fault and leave the
  arguments unchanged; no operation was rewritten between the kernel and its idealization.
-/
import proofs.«149001_j51711406244127_1_alg».proof.Defs
import proofs.«149001_j51711406244127_1_alg».proof.Proof.Gen.Kernel
import proofs.«149001_j51711406244127_1_alg».proof.Proof.Gen.Kernel.Skeleton
import proofs.«149001_j51711406244127_1_alg».proof.Proof.Gen.Kernel.Launch
import proofs.«149001_j51711406244127_1_alg».proof.Proof.Gen.Kernel.Points
import proofs.«149001_j51711406244127_1_alg».proof.Proof.Gen.Kernel.Frame
import proofs.«149001_j51711406244127_1_alg».proof.Proof.Gen.KernelIdeal
import proofs.«149001_j51711406244127_1_alg».proof.Proof.Gen.KernelIdeal.Skeleton
import proofs.«149001_j51711406244127_1_alg».proof.Proof.Gen.KernelIdeal.Launch
import proofs.«149001_j51711406244127_1_alg».proof.Proof.Gen.KernelIdeal.Points
import proofs.«149001_j51711406244127_1_alg».proof.Proof.Gen.KernelIdeal.Frame
import proofs.«149001_j51711406244127_1_alg».proof.Proof.Gen.ReferenceIdeal
import proofs.«149001_j51711406244127_1_alg».proof.Proof.Gen.KernelIdeal.Value
import proofs.«149001_j51711406244127_1_alg».proof.Proof.Gen.ReferenceIdeal.Run
import proofs.«149001_j51711406244127_1_alg».proof.Proof.Gen.ReferenceIdeal.Read
import proofs.«149001_j51711406244127_1_alg».proof.Proof.Gen.Pre_finite_inputs
import proofs.«149001_j51711406244127_1_alg».proof.Proof.RefValue
import proofs.«149001_j51711406244127_1_alg».proof.Proof.Final
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the experts' output of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
